-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 85
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S100000x128, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S100000x1, .f32⟩
  | .hbm, ⟨44, _⟩ => ⟨S1x128, .f32⟩
  | .hbm, ⟨45, _⟩ => ⟨S100000x128, .f32⟩
  | .hbm, ⟨46, _⟩ => ⟨S_, .f32⟩
  | .hbm, ⟨47, _⟩ => ⟨S1600000, .f32⟩
  | .hbm, ⟨48, _⟩ => ⟨S_, .f32⟩
  | .hbm, ⟨49, _⟩ => ⟨S100000, .f32⟩
  | .hbm, ⟨50, _⟩ => ⟨S1600000x1, .i32⟩
  | .hbm, ⟨51, _⟩ => ⟨S100000, .f32⟩
  | .hbm, ⟨52, _⟩ => ⟨S_, .f32⟩
  | .hbm, ⟨53, _⟩ => ⟨S100000, .f32⟩
  | .hbm, ⟨54, _⟩ => ⟨S1600000x1, .i32⟩
  | .hbm, ⟨55, _⟩ => ⟨S100000, .f32⟩
  | .hbm, ⟨56, _⟩ => ⟨S_, .f32⟩
  | .hbm, ⟨57, _⟩ => ⟨S_, .f32⟩
  | .hbm, ⟨58, _⟩ => ⟨S100000, .f32⟩
  | .hbm, ⟨59, _⟩ => ⟨S100000, .f32⟩
  | .hbm, ⟨60, _⟩ => ⟨S100000, .f32⟩
  | .hbm, ⟨61, _⟩ => ⟨S_, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000, .f32⟩
  | .hbm, ⟨66, _⟩ => ⟨S100000x1, .f32⟩
  | .hbm, ⟨67, _⟩ => ⟨S100000x128, .f32⟩
  | .hbm, ⟨68, _⟩ => ⟨S100000x128, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x128, .f32⟩
  | .hbm, ⟨78, _⟩ => ⟨S_, .f32⟩
  | .hbm, ⟨79, _⟩ => ⟨S100000x128, .f32⟩
  | .hbm, ⟨80, _⟩ => ⟨S1600000x1, .i32⟩
  | .hbm, ⟨81, _⟩ => ⟨S100000x128, .f32⟩
  | .hbm, ⟨82, _⟩ => ⟨S100000x1, .f32⟩
  | .hbm, ⟨83, _⟩ => ⟨S1x64, .f32⟩
  | .hbm, ⟨84, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S128x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_cst_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_8 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_9 : Ref sig .tc := ⟨.hbm, 56, rfl⟩
abbrev main_call2_v0 : Ref sig .tc := ⟨.hbm, 57, rfl⟩
abbrev main_call2_v1 : Ref sig .tc := ⟨.hbm, 58, rfl⟩
abbrev main_v34 : Ref sig .tc := ⟨.hbm, 59, rfl⟩
abbrev main_v35 : Ref sig .tc := ⟨.hbm, 60, rfl⟩
abbrev main_cst_10 : Ref sig .tc := ⟨.hbm, 61, rfl⟩
abbrev main_call3_v0 : Ref sig .tc := ⟨.hbm, 62, rfl⟩
abbrev main_call3_v1 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_c_11 : Ref sig .tc := ⟨.hbm, 69, rfl⟩
abbrev main_v41 : Ref sig .tc := ⟨.hbm, 70, rfl⟩
abbrev main_v42 : Ref sig .tc := ⟨.hbm, 71, rfl⟩
abbrev main_c_12 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_13 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S100000_S100000x1 : S100000.ShapeCasts S100000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v23) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v50) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 96
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S100000x128, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S100000x1, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S1600000, .f32⟩
  | .hbm, ⟨55, _⟩ => ⟨S_, .f32⟩
  | .hbm, ⟨56, _⟩ => ⟨S100000, .f32⟩
  | .hbm, ⟨57, _⟩ => ⟨S1600000x1, .i32⟩
  | .hbm, ⟨58, _⟩ => ⟨S100000, .f32⟩
  | .hbm, ⟨59, _⟩ => ⟨S_, .f32⟩
  | .hbm, ⟨60, _⟩ => ⟨S100000, .f32⟩
  | .hbm, ⟨61, _⟩ => ⟨S1600000x1, .i32⟩
  | .hbm, ⟨62, _⟩ => ⟨S100000, .f32⟩
  | .hbm, ⟨63, _⟩ => ⟨S_, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000, .f32⟩
  | .hbm, ⟨68, _⟩ => ⟨S_, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000, .f32⟩
  | .hbm, ⟨73, _⟩ => ⟨S100000x1, .f32⟩
  | .hbm, ⟨74, _⟩ => ⟨S100000x128, .f32⟩
  | .hbm, ⟨75, _⟩ => ⟨S100000x128, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000x128, .f32⟩
  | .hbm, ⟨85, _⟩ => ⟨S_, .f32⟩
  | .hbm, ⟨86, _⟩ => ⟨S100000x128, .f32⟩
  | .hbm, ⟨87, _⟩ => ⟨S1600000x1, .i32⟩
  | .hbm, ⟨88, _⟩ => ⟨S100000x128, .f32⟩
  | .hbm, ⟨89, _⟩ => ⟨S100000x1, .f32⟩
  | .hbm, ⟨90, _⟩ => ⟨S100000x128, .f32⟩
  | .hbm, ⟨91, _⟩ => ⟨S100000x128, .f32⟩
  | .hbm, ⟨92, _⟩ => ⟨S100000x64, .f32⟩
  | .hbm, ⟨93, _⟩ => ⟨S1x64, .f32⟩
  | .hbm, ⟨94, _⟩ => ⟨S100000x64, .f32⟩
  | .hbm, ⟨95, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call2_cst : Ref sig .tc := ⟨.hbm, 50, rfl⟩
abbrev main_call2_v0 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_9 : Ref sig .tc := ⟨.hbm, 63, rfl⟩
abbrev main_call3_v0 : Ref sig .tc := ⟨.hbm, 64, rfl⟩
abbrev main_call3_v1 : Ref sig .tc := ⟨.hbm, 65, rfl⟩
abbrev main_v39 : Ref sig .tc := ⟨.hbm, 66, rfl⟩
abbrev main_v40 : Ref sig .tc := ⟨.hbm, 67, rfl⟩
abbrev main_cst_10 : Ref sig .tc := ⟨.hbm, 68, rfl⟩
abbrev main_call4_v0 : Ref sig .tc := ⟨.hbm, 69, rfl⟩
abbrev main_call4_v1 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_c_11 : Ref sig .tc := ⟨.hbm, 76, rfl⟩
abbrev main_v46 : Ref sig .tc := ⟨.hbm, 77, rfl⟩
abbrev main_v47 : Ref sig .tc := ⟨.hbm, 78, rfl⟩
abbrev main_c_12 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_13 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.HostChain.lean ====
/-
  The kernel program's host side, read. Before each of its two regions the program runs, on the host, the same
  operations the reference runs: the in- and out-degrees as scatter-adds of ones, their clip at one and inverse
  square root, the features scaled by the source normalisation, the gather along the edges' sources and the
  scatter-add onto their destinations. So the arrays each region is entered with are the reference's own stage
  functions of the launch arguments (for the second region: given that the first region's result array is the
  reference's first-layer value), the destination normalisation cast to a column and the bias cast to a row.
-/
import proofs.«107067_j10977936409091_1_alg».proof.Proof.Gen.KernelIdeal.Frame
import proofs.«107067_j10977936409091_1_alg».proof.Proof.Gen.ReferenceIdeal.Read

set_option maxRecDepth 16384

noncomputable section

namespace Cert.KernelIdeal.HostChain

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Before the first region -/

/-- No host operation before the first region writes an argument. -/
theorem W5_arg0 (c : Dev nD) : W5 m ρ c (Proc.devRef .tc main_arg0) = m ((c : Thread nD τ).loc main_arg0) := by
  show StableHlo.after hostOps0_4 (StableHlo.after hostOps0_3 (StableHlo.after hostOps0_2 (StableHlo.after hostOps0_1 (StableHlo.after hostOps0 (W0 m ρ c))))) (Proc.devRef .tc main_arg0) = _
  after_results_simp <;> rfl
theorem W5_arg1 (c : Dev nD) : W5 m ρ c (Proc.devRef .tc main_arg1) = m ((c : Thread nD τ).loc main_arg1) := by
  show StableHlo.after hostOps0_4 (StableHlo.after hostOps0_3 (StableHlo.after hostOps0_2 (StableHlo.after hostOps0_1 (StableHlo.after hostOps0 (W0 m ρ c))))) (Proc.devRef .tc main_arg1) = _
  after_results_simp <;> rfl
theorem W5_arg2 (c : Dev nD) : W5 m ρ c (Proc.devRef .tc main_arg2) = m ((c : Thread nD τ).loc main_arg2) := by
  show StableHlo.after hostOps0_4 (StableHlo.after hostOps0_3 (StableHlo.after hostOps0_2 (StableHlo.after hostOps0_1 (StableHlo.after hostOps0 (W0 m ρ c))))) (Proc.devRef .tc main_arg2) = _
  after_results_simp <;> rfl
theorem W5_arg3 (c : Dev nD) : W5 m ρ c (Proc.devRef .tc main_arg3) = m ((c : Thread nD τ).loc main_arg3) := by
  show StableHlo.after hostOps0_4 (StableHlo.after hostOps0_3 (StableHlo.after hostOps0_2 (StableHlo.after hostOps0_1 (StableHlo.after hostOps0 (W0 m ρ c))))) (Proc.devRef .tc main_arg3) = _
  after_results_simp <;> rfl
theorem W5_arg5 (c : Dev nD) : W5 m ρ c (Proc.devRef .tc main_arg5) = m ((c : Thread nD τ).loc main_arg5) := by
  show StableHlo.after hostOps0_4 (StableHlo.after hostOps0_3 (StableHlo.after hostOps0_2 (StableHlo.after hostOps0_1 (StableHlo.after hostOps0 (W0 m ρ c))))) (Proc.devRef .tc main_arg5) = _
  after_results_simp <;> rfl
theorem W5_arg6 (c : Dev nD) : W5 m ρ c (Proc.devRef .tc main_arg6) = m ((c : Thread nD τ).loc main_arg6) := by
  show StableHlo.after hostOps0_4 (StableHlo.after hostOps0_3 (StableHlo.after hostOps0_2 (StableHlo.after hostOps0_1 (StableHlo.after hostOps0 (W0 m ρ c))))) (Proc.devRef .tc main_arg6) = _
  after_results_simp <;> rfl

set_option maxHeartbeats 4000000 in
/-- The first region's feature operand: the scaled features gathered along the sources and added onto the destinations. -/
theorem V5_v23 (c : Dev nD) :
    V5 m ρ c main_v23 = Cert.ReferenceIdeal.Read.val_main_v23 (F := F) (m ((c : Thread nD τ).loc main_arg0)) (m ((c : Thread nD τ).loc main_arg1)) (m ((c : Thread nD τ).loc main_arg2)) := by
  show StableHlo.after hostOps0_4 (StableHlo.after hostOps0_3 (StableHlo.after hostOps0_2 (StableHlo.after hostOps0_1 (StableHlo.after hostOps0 (W0 m ρ c))))) (Proc.devRef .tc main_v23) = _
  after_results_simp <;> rfl

set_option maxHeartbeats 4000000 in
/-- Its normalisation operand: the destination normalisation cast to a column. -/
theorem V5_v24 (c : Dev nD) :
    V5 m ρ c main_v24 = shapeCast S100000x1 (Cert.ReferenceIdeal.Read.val_main_v10 (F := F) (m ((c : Thread nD τ).loc main_arg2))) shapeCasts_S100000_S100000x1 := by
  show StableHlo.after hostOps0_4 (StableHlo.after hostOps0_3 (StableHlo.after hostOps0_2 (StableHlo.after hostOps0_1 (StableHlo.after hostOps0 (W0 m ρ c))))) (Proc.devRef .tc main_v24) = _
  after_results_simp <;> rfl

/-- Its bias operand: the first bias cast to a row. -/
theorem V5_v25 (c : Dev nD) :
    V5 m ρ c main_v25 = shapeCast S1x128 (m ((c : Thread nD τ).loc main_arg4)) shapeCasts_S128_S1x128 := by
  show StableHlo.after hostOps0_4 (StableHlo.after hostOps0_3 (StableHlo.after hostOps0_2 (StableHlo.after hostOps0_1 (StableHlo.after hostOps0 (W0 m ρ c))))) (Proc.devRef .tc main_v25) = _
  after_results_simp <;> rfl

/-- Its weight operand is the argument. -/
theorem V5_arg3 (c : Dev nD) : V5 m ρ c main_arg3 = m ((c : Thread nD τ).loc main_arg3) := W5_arg3 m ρ c

/-! ## Between the regions -/

/-- The first region writes only its result array: an argument it does not stage is as before it, -/
theorem W6_arg1 (c : Dev nD) : W6 m ρ c (Proc.devRef .tc main_arg1) = m ((c : Thread nD τ).loc main_arg1) :=
  (W6_of_ne m ρ c main_arg1 (by decide)).trans (W5_arg1 m ρ c)
theorem W6_arg2 (c : Dev nD) : W6 m ρ c (Proc.devRef .tc main_arg2) = m ((c : Thread nD τ).loc main_arg2) :=
  (W6_of_ne m ρ c main_arg2 (by decide)).trans (W5_arg2 m ρ c)
theorem W6_arg5 (c : Dev nD) : W6 m ρ c (Proc.devRef .tc main_arg5) = m ((c : Thread nD τ).loc main_arg5) :=
  (W6_of_ne m ρ c main_arg5 (by decide)).trans (W5_arg5 m ρ c)
theorem W6_arg6 (c : Dev nD) : W6 m ρ c (Proc.devRef .tc main_arg6) = m ((c : Thread nD τ).loc main_arg6) :=
  (W6_of_ne m ρ c main_arg6 (by decide)).trans (W5_arg6 m ρ c)

/-- and its result array holds what its write-backs leave. -/
theorem W6_v26 (c : Dev nD) : W6 m ρ c (Proc.devRef .tc main_v26) = (dat0 (V5 m ρ) c).arrAt 4 cfg0.N := W6_arr m ρ c 4

set_option maxHeartbeats 4000000 in
/-- The second region's feature operand, when the first region's result is the reference's first-layer value. -/
theorem V11_v50 (c : Dev nD)
    (h : W6 m ρ c (Proc.devRef .tc main_v26) = Cert.ReferenceIdeal.Read.val_main_v31 (F := F) (m ((c : Thread nD τ).loc main_arg0)) (m ((c : Thread nD τ).loc main_arg1)) (m ((c : Thread nD τ).loc main_arg2)) (m ((c : Thread nD τ).loc main_arg3)) (m ((c : Thread nD τ).loc main_arg4))) :
    V11 m ρ c main_v50 = Cert.ReferenceIdeal.Read.val_main_v55 (F := F) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1_4 (StableHlo.after hostOps1_3 (StableHlo.after hostOps1_2 (StableHlo.after hostOps1_1 (StableHlo.after hostOps1 (W6 m ρ c))))) (Proc.devRef .tc main_v50) = _
  after_results_simp
  rw [h, W6_arg1 m ρ c, W6_arg2 m ρ c]
  rfl

set_option maxHeartbeats 4000000 in
/-- Its normalisation operand. -/
theorem V11_v51 (c : Dev nD) :
    V11 m ρ c main_v51 = shapeCast S100000x1 (Cert.ReferenceIdeal.Read.val_main_v42 (F := F) (m ((c : Thread nD τ).loc main_arg2))) shapeCasts_S100000_S100000x1 := by
  show StableHlo.after hostOps1_4 (StableHlo.after hostOps1_3 (StableHlo.after hostOps1_2 (StableHlo.after hostOps1_1 (StableHlo.after hostOps1 (W6 m ρ c))))) (Proc.devRef .tc main_v51) = _
  after_results_simp
  rw [W6_arg2 m ρ c]
  rfl

/-- Its bias operand: the second bias cast to a row. -/
theorem V11_v52 (c : Dev nD) :
    V11 m ρ c main_v52 = shapeCast S1x64 (m ((c : Thread nD τ).loc main_arg6)) shapeCasts_S64_S1x64 := by
  show StableHlo.after hostOps1_4 (StableHlo.after hostOps1_3 (StableHlo.after hostOps1_2 (StableHlo.after hostOps1_1 (StableHlo.after hostOps1 (W6 m ρ c))))) (Proc.devRef .tc main_v52) = _
  after_results_simp
  rw [W6_arg6 m ρ c]
  rfl

/-- Its weight operand is the argument. -/
theorem V11_arg5 (c : Dev nD) : V11 m ρ c main_arg5 = m ((c : Thread nD τ).loc main_arg5) := by
  show StableHlo.after hostOps1_4 (StableHlo.after hostOps1_3 (StableHlo.after hostOps1_2 (StableHlo.after hostOps1_1 (StableHlo.after hostOps1 (W6 m ρ c))))) (Proc.devRef .tc main_arg5) = _
  after_results_simp
  exact W6_arg5 m ρ c

/-- The second region's result array holds what its write-backs leave. -/
theorem W12_v53 (c : Dev nD) : W12 m ρ c (Proc.devRef .tc main_v53) = (dat1 (V11 m ρ) c).arrAt 4 cfg1.N := W12_arr m ρ c 4

end Cert.KernelIdeal.HostChain

end
-- ==== Proof.LibDenseRows.lean ====
/-
  Dense layers read along a row, for any number of rows and any widths. A dense layer sends a row x to x·W + b, and the
  rectifier takes the maximum with zero. A kernel spells the layer on a block of R rows as a block product into a zero
  accumulator plus the bias cast to one row and broadcast down the rows; a host program spells it on all R rows as a
  dot_general plus the bias broadcast in two steps. Read along row r, both are the row function of row r of the
  operand — at the extended reals, where the two products are the same sum over the contracted coordinate. The same
  for the rectifier in its two spellings (the maximum with a zero splat; the maximum with the zero word broadcast from
  a scalar), and for a change of float format, which changes no entry. The products are stated at the plain
  dimension record (rows × contraction times contraction × columns), to which a printed record of the same lists unfolds.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.LibDenseRows

open Idealize.ShloMosaic Idealize.ShloMosaic.ValueIdx

/-- The f32 word of zero read at the extended reals; kept as a word, since both spellings write the same one. -/
abbrev zeroW : EReal := Ideal.ofBits .f32 0x00000000#32

/-- A dense layer on one row: x ↦ x·W + b. -/
def dense {K N : ℕ} (x : Fin K → EReal) (W : Fin K → Fin N → EReal) (b : Fin N → EReal) : Fin N → EReal :=
  fun n => (∑ k : Fin K, x k * W k n) + b n

/-- The rectifier on one row. -/
def relu {N : ℕ} (x : Fin N → EReal) : Fin N → EReal := fun n => max (x n) zeroW

abbrev Sh2 (a b : ℕ) : Shape := ⟨2, ![a, b]⟩
abbrev Sh1 (a : ℕ) : Shape := ⟨1, ![a]⟩
abbrev Sh0 : Shape := ⟨0, ![]⟩

variable {R K N : ℕ} {φ₁ φ₂ : FTy}

/-- A block product into the zero accumulator, read at (a, b): the sum over the contracted coordinate. -/
theorem matmul_plain_zero_apply (prec : Option ContractPrecision) (A : FVec Ideal (Sh2 R K) φ₁) (B : FVec Ideal (Sh2 K N) φ₂)
    (a : Fin R) (b : Fin N) :
    matmul (DotDims.plain R K N) prec A B (constant (Sh2 R N) .f32 0x00000000#32) (ix2 a b) = ∑ c : Fin K, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

/-! ## Pointwise operations read at an index -/

theorem exp_apply {s : Shape} {φ : FTy} (v : FVec Ideal s φ) (i : s.Idx) : exp v i = Ideal.exp (v i) := rfl
theorem hostExp_apply {s : Shape} {φ : FTy} (v : FVec Ideal s φ) (i : s.Idx) : Host.exp v i = Ideal.exp (v i) := rfl
theorem hostDivf_apply {s : Shape} {φ : FTy} (a b : FVec Ideal s φ) (i : s.Idx) : Host.divf a b i = Ideal.div (a i) (b i) := rfl

/-- A change of float format changes no entry. -/
theorem truncf_row {φ ψ : FTy} (Z : FVec Ideal (Sh2 R N) φ) (h : ψ.bits < φ.bits) (r : Fin R) :
    (fun n : Fin N => (truncf ψ Z h : FVec Ideal (Sh2 R N) ψ) (ix2 r n)) = fun n => Z (ix2 r n) := rfl

/-! ## A kernel's spelling of a layer, on a block of R rows -/

/-- The kernel's dense layer: the block times the weights into a zero accumulator, plus the bias as a broadcast row. -/
def kDense (X : FVec Ideal (Sh2 R K) φ₁) (W : FVec Ideal (Sh2 K N) φ₂) (b : FVec Ideal (Sh1 N) .f32)
    (h1 : (Sh1 N).ShapeCasts (Sh2 1 N)) (h2 : (Sh2 1 N).Broadcasts (Sh2 R N)) : FVec Ideal (Sh2 R N) .f32 :=
  addf (matmul (DotDims.plain R K N) none X W (constant (Sh2 R N) .f32 0x00000000#32))
    (broadcastTo (Sh2 R N) (shapeCast (Sh2 1 N) b h1) h2)

theorem kDense_row (X : FVec Ideal (Sh2 R K) φ₁) (W : FVec Ideal (Sh2 K N) φ₂) (b : FVec Ideal (Sh1 N) .f32)
    (h1 : (Sh1 N).ShapeCasts (Sh2 1 N)) (h2 : (Sh2 1 N).Broadcasts (Sh2 R N)) (r : Fin R) :
    (fun n : Fin N => kDense X W b h1 h2 (ix2 r n))
      = dense (fun k => X (ix2 r k)) (fun k n => W (ix2 k n)) (fun n => b (ix1 n)) := by
  funext n
  unfold kDense dense
  rw [addf_apply, matmul_plain_zero_apply, broadcastTo_1b_ab_apply, shapeCast_a_1a_apply]

/-- The kernel's rectifier: the maximum with a splat of the zero word. -/
def kRelu (Z : FVec Ideal (Sh2 R N) .f32) : FVec Ideal (Sh2 R N) .f32 :=
  maximumf Z (broadcast (Sh2 R N) (Scalar.ofBits .f32 0x00000000#32))

theorem kRelu_row (Z : FVec Ideal (Sh2 R N) .f32) (r : Fin R) :
    (fun n : Fin N => kRelu Z (ix2 r n)) = relu (fun n => Z (ix2 r n)) := rfl

/-! ## A host program's spelling of a layer, on all R rows -/

/-- The host's dense layer: a dot_general plus the bias made a one-row matrix and repeated over the rows. -/
def hDense (X : FVec Ideal (Sh2 R K) φ₁) (W : FVec Ideal (Sh2 K N) φ₂) (b : FVec Ideal (Sh1 N) .f32)
    (h1 : (Sh1 N).BroadcastsInDim (Sh2 1 N) ![1]) (h2 : (Sh2 1 N).BroadcastsInDim (Sh2 R N) ![0, 1]) : FVec Ideal (Sh2 R N) .f32 :=
  addf (Host.dotGeneral (DotDims.plain R K N) none X W)
    (broadcastInDim (Sh2 R N) ![0, 1] h2 (broadcastInDim (Sh2 1 N) ![1] h1 b))

/-- A bias vector made a one-row matrix and then repeated over the rows reads, at (r, n), the bias at n. -/
theorem biasRows_apply {α : Type} (b : (Sh1 N).Idx → α)
    (h1 : (Sh1 N).BroadcastsInDim (Sh2 1 N) ![1]) (h2 : (Sh2 1 N).BroadcastsInDim (Sh2 R N) ![0, 1]) (r : Fin R) (n : Fin N) :
    broadcastInDim (Sh2 R N) ![0, 1] h2 (broadcastInDim (Sh2 1 N) ![1] h1 b) (ix2 r n) = b (ix1 n) := by
  rw [broadcastInDim_apply ![0, 1] h2 _ (ix2 r n) (ix2 (0 : Fin 1) n) (fun a => by
    match a with
    | ⟨0, _⟩ => rfl
    | ⟨1, _⟩ =>
      show n.val = if N = 1 then 0 else n.val
      split
      · have := n.isLt; omega
      · rfl)]
  rw [broadcastInDim_apply ![1] h1 b (ix2 (0 : Fin 1) n) (ix1 n) (fun a => by
    match a with
    | ⟨0, _⟩ =>
      show n.val = if N = 1 then 0 else n.val
      split
      · have := n.isLt; omega
      · rfl)]

theorem hDense_row (X : FVec Ideal (Sh2 R K) φ₁) (W : FVec Ideal (Sh2 K N) φ₂) (b : FVec Ideal (Sh1 N) .f32)
    (h1 : (Sh1 N).BroadcastsInDim (Sh2 1 N) ![1]) (h2 : (Sh2 1 N).BroadcastsInDim (Sh2 R N) ![0, 1]) (r : Fin R) :
    (fun n : Fin N => hDense X W b h1 h2 (ix2 r n))
      = dense (fun k => X (ix2 r k)) (fun k n => W (ix2 k n)) (fun n => b (ix1 n)) := by
  funext n
  unfold hDense dense
  rw [addf_apply, StackMember.dotGeneral_plain_apply, biasRows_apply]

/-- The reference's rectifier: the maximum with the zero word broadcast from a scalar. -/
def hRelu (Z : FVec Ideal (Sh2 R N) .f32) (hb : Sh0.BroadcastsInDim (Sh2 R N) ![]) : FVec Ideal (Sh2 R N) .f32 :=
  maximumf Z (broadcastInDim (Sh2 R N) ![] hb (constant Sh0 .f32 0x00000000#32))

theorem hRelu_row (Z : FVec Ideal (Sh2 R N) .f32) (hb : Sh0.BroadcastsInDim (Sh2 R N) ![]) (r : Fin R) :
    (fun n : Fin N => hRelu Z hb (ix2 r n)) = relu (fun n => Z (ix2 r n)) := by
  funext n
  unfold hRelu relu
  rw [maximumf_apply, broadcastInDim_apply ![] hb _ (ix2 r n) ix0 (fun a => a.elim0)]
  rfl

end Cert.LibDenseRows
-- ==== Proof.LibKeepdims.lean ====
/-
  Two layout facts for a reduction kept as a column: a length-`a` vector cast to an `a × 1` column reads, at
  row `p`, the vector at `p`; and an `a × 1` column broadcast to `a × b` reads, at `(p, c)`, the column at row `p`.
  Together they say that a row statistic (a row's sum, maximum, …) broadcast back over its row is that statistic
  at every column. Stated over literal rank-1 and rank-2 shapes with indices written by coordinates.
-/
import Idealize.ShloMosaic.Lib.ValueIdx
import Idealize.ShloMosaic.Lib.Pipeline.Value

namespace Cert.LibKeepdims

open Idealize.ShloMosaic Idealize.ShloMosaic.ValueIdx

variable {α : Type}

/-- An `[a]` array cast to `[a, 1]` reads, at `(p, u)`, the operand at `p`, whatever the unit coordinate `u`:
    the two indices have the same row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibKeepdims
-- ==== Proof.LayerSpec.lean ====
/-
  The dense stage of one graph-convolution layer. Node r has an aggregated feature row a_r (K numbers) and a
  normalisation s_r; the stage sends it to (s_r · a_r)·W + b, a row of N numbers, and the first layer then takes
  the maximum with zero. A kernel spells this on a block of rows: the block times the column of normalisations
  broadcast along the features, a change of float format on both factors (which changes no entry over the extended
  reals), a block product into a zero accumulator, plus the bias row broadcast down the rows. A host program spells
  it on all rows at once: the normalisation vector broadcast in two steps, a product, a dot_general, the bias vector
  broadcast in two steps. Read along a row both are the same row function, because the two matrix products are the
  same sum over the contracted coordinate; so on every node both equal one whole-array function, `stage`.
-/
import Idealize.ShloMosaic.PureOps.Ideal.Laws
import Idealize.ShloMosaic.Lib.ValueIdx
import Idealize.ShloMosaic.Lib.ValueLayout
import Idealize.ShloMosaic.Lib.Pipeline.Value
import proofs.«107067_j10977936409091_1_alg».proof.Proof.LibDenseRows
import proofs.«107067_j10977936409091_1_alg».proof.Proof.LibKeepdims

noncomputable section

namespace Cert.GraphConvDense

open Idealize.ShloMosaic Idealize.ShloMosaic.ValueIdx Cert.LibDenseRows

variable {R K N : ℕ}

/-- One node's output row: its aggregated features, each scaled by the node's normalisation `s`, through the dense layer. -/
def nodeRow (a : Fin K → EReal) (s : EReal) (W : Fin K → Fin N → EReal) (b : Fin N → EReal) : Fin N → EReal :=
  dense (fun k => a k * s) W b

theorem nodeRow_congr {a a' : Fin K → EReal} {s s' : EReal} {W W' : Fin K → Fin N → EReal} {b b' : Fin N → EReal} {q q' : Fin N}
    (ha : a = a') (hs : s = s') (hW : W = W') (hb : b = b') (hq : q = q') : nodeRow a s W b q = nodeRow a' s' W' b' q' := by
  subst ha hs hW hb hq; rfl

/-! ## The kernel's spelling, on a block of R rows -/

/-- The block body without the rectifier: (X ⊙ column S) in a narrower format, times W in that format, into a zero
    accumulator, plus the bias row broadcast down the rows. -/
def kLayer (X : FVec Ideal (Sh2 R K) .f32) (S : FVec Ideal (Sh2 R 1) .f32) (W : FVec Ideal (Sh2 K N) .f32) (B : FVec Ideal (Sh2 1 N) .f32)
    (h0 : (Sh2 R K).ShapeCasts (Sh2 R K)) (h1 : (Sh2 R 1).ShapeCasts (Sh2 R 1)) (h2 : (Sh2 R 1).Broadcasts (Sh2 R K))
    (hlt : FTy.bits .bf16 < FTy.bits .f32) (h3 : (Sh2 1 N).ShapeCasts (Sh2 1 N)) (h4 : (Sh2 1 N).Broadcasts (Sh2 R N)) :
    FVec Ideal (Sh2 R N) .f32 :=
  addf (matmul (DotDims.plain R K N) none
      (truncf .bf16 (mulf (shapeCast (Sh2 R K) X h0) (broadcastTo (Sh2 R K) (shapeCast (Sh2 R 1) S h1) h2)) hlt)
      (truncf .bf16 W hlt) (constant (Sh2 R N) .f32 0x00000000#32))
    (broadcastTo (Sh2 R N) (shapeCast (Sh2 1 N) B h3) h4)

theorem kLayer_row (X : FVec Ideal (Sh2 R K) .f32) (S : FVec Ideal (Sh2 R 1) .f32) (W : FVec Ideal (Sh2 K N) .f32) (B : FVec Ideal (Sh2 1 N) .f32)
    (h0 : (Sh2 R K).ShapeCasts (Sh2 R K)) (h1 : (Sh2 R 1).ShapeCasts (Sh2 R 1)) (h2 : (Sh2 R 1).Broadcasts (Sh2 R K))
    (hlt : FTy.bits .bf16 < FTy.bits .f32) (h3 : (Sh2 1 N).ShapeCasts (Sh2 1 N)) (h4 : (Sh2 1 N).Broadcasts (Sh2 R N)) (p : Fin R) :
    (fun q : Fin N => kLayer X S W B h0 h1 h2 hlt h3 h4 (ix2 p q))
      = nodeRow (fun k => X (ix2 p k)) (S (ix2 p (0 : Fin 1))) (fun k q => W (ix2 k q)) (fun q => B (ix2 (0 : Fin 1) q)) := by
  funext q
  unfold kLayer nodeRow dense
  rw [addf_apply, matmul_plain_zero_apply, broadcastTo_1b_ab_apply]
  simp only [shapeCast_self]
  refine congrArg (fun z : EReal => z + B (ix2 (0 : Fin 1) q)) (Finset.sum_congr rfl fun k _ => ?_)
  show (X (ix2 p k) * broadcastTo (Sh2 R K) S h2 (ix2 p k)) * W (ix2 k q) = _
  rw [Cert.LibKeepdims.broadcastTo_a1_ab_apply]

/-! ## The host's spelling, on all R rows -/

/-- The normalisation vector broadcast to a column and then along the features, times the features, through the
    host's dense layer. -/
def hLayer (A : FVec Ideal (Sh2 R K) .f32) (s : FVec Ideal (Sh1 R) .f32) (W : FVec Ideal (Sh2 K N) .f32) (b : FVec Ideal (Sh1 N) .f32)
    (g1 : (Sh1 R).BroadcastsInDim (Sh2 R 1) ![0]) (g2 : (Sh2 R 1).BroadcastsInDim (Sh2 R K) ![0, 1])
    (h1 : (Sh1 N).BroadcastsInDim (Sh2 1 N) ![1]) (h2 : (Sh2 1 N).BroadcastsInDim (Sh2 R N) ![0, 1]) : FVec Ideal (Sh2 R N) .f32 :=
  hDense (mulf A (broadcastInDim (Sh2 R K) ![0, 1] g2 (broadcastInDim (Sh2 R 1) ![0] g1 s))) W b h1 h2

/-- A vector made a column and then repeated along the row reads, at (r, k), the vector at r. -/
theorem scaleCols_apply {α : Type} (s : (Sh1 R).Idx → α)
    (g1 : (Sh1 R).BroadcastsInDim (Sh2 R 1) ![0]) (g2 : (Sh2 R 1).BroadcastsInDim (Sh2 R K) ![0, 1]) (r : Fin R) (k : Fin K) :
    broadcastInDim (Sh2 R K) ![0, 1] g2 (broadcastInDim (Sh2 R 1) ![0] g1 s) (ix2 r k) = s (ix1 r) := by
  rw [broadcastInDim_apply ![0, 1] g2 _ (ix2 r k) (ix2 r (0 : Fin 1)) (fun a => by
    match a with
    | ⟨0, _⟩ =>
      show r.val = if R = 1 then 0 else r.val
      split
      · have := r.isLt; omega
      · rfl
    | ⟨1, _⟩ =>
      show 0 = if (1 : ℕ) = 1 then 0 else k.val
      rw [if_pos rfl])]
  rw [broadcastInDim_apply ![0] g1 s (ix2 r (0 : Fin 1)) (ix1 r) (fun a => by
    match a with
    | ⟨0, _⟩ =>
      show r.val = if R = 1 then 0 else r.val
      split
      · have := r.isLt; omega
      · rfl)]

theorem hLayer_row (A : FVec Ideal (Sh2 R K) .f32) (s : FVec Ideal (Sh1 R) .f32) (W : FVec Ideal (Sh2 K N) .f32) (b : FVec Ideal (Sh1 N) .f32)
    (g1 : (Sh1 R).BroadcastsInDim (Sh2 R 1) ![0]) (g2 : (Sh2 R 1).BroadcastsInDim (Sh2 R K) ![0, 1])
    (h1 : (Sh1 N).BroadcastsInDim (Sh2 1 N) ![1]) (h2 : (Sh2 1 N).BroadcastsInDim (Sh2 R N) ![0, 1]) (r : Fin R) :
    (fun q : Fin N => hLayer A s W b g1 g2 h1 h2 (ix2 r q))
      = nodeRow (fun k => A (ix2 r k)) (s (ix1 r)) (fun k q => W (ix2 k q)) (fun q => b (ix1 q)) := by
  unfold hLayer nodeRow
  rw [hDense_row]
  refine congrArg (fun f : Fin K → EReal => dense f (fun k q => W (ix2 k q)) (fun q => b (ix1 q))) (funext fun k => ?_)
  show A (ix2 r k) * broadcastInDim (Sh2 R K) ![0, 1] g2 (broadcastInDim (Sh2 R 1) ![0] g1 s) (ix2 r k) = _
  rw [scaleCols_apply]

/-! ## One function of the whole arrays -/

/-- The stage on every node, from the arrays a region is entered with: the aggregated features, the normalisations
    as a column, the weights, the bias as a row. -/
def stage (A : (Sh2 R K).Idx → EReal) (S : (Sh2 R 1).Idx → EReal) (W : (Sh2 K N).Idx → EReal) (B : (Sh2 1 N).Idx → EReal) :
    (Sh2 R N).Idx → EReal :=
  fun i => nodeRow (fun k => A (ix2 (i 0) k)) (S (ix2 (i 0) (0 : Fin 1))) (fun k q => W (ix2 k q)) (fun q => B (ix2 (0 : Fin 1) q)) (i 1)

/-- The same followed by the rectifier. -/
def stageRelu (A : (Sh2 R K).Idx → EReal) (S : (Sh2 R 1).Idx → EReal) (W : (Sh2 K N).Idx → EReal) (B : (Sh2 1 N).Idx → EReal) :
    (Sh2 R N).Idx → EReal :=
  fun i => max (stage A S W B i) zeroW

theorem stage_ix2 (A : (Sh2 R K).Idx → EReal) (S : (Sh2 R 1).Idx → EReal) (W : (Sh2 K N).Idx → EReal) (B : (Sh2 1 N).Idx → EReal)
    (r : Fin R) (q : Fin N) :
    stage A S W B (ix2 r q) = nodeRow (fun k => A (ix2 r k)) (S (ix2 r (0 : Fin 1))) (fun k q => W (ix2 k q)) (fun q => B (ix2 (0 : Fin 1) q)) q := rfl

/-- The host's layer on all rows is `stage` of the features, the normalisation vector cast to a column, the weights
    and the bias vector cast to a row. -/
theorem hLayer_eq_stage (A : FVec Ideal (Sh2 R K) .f32) (s : FVec Ideal (Sh1 R) .f32) (W : FVec Ideal (Sh2 K N) .f32) (b : FVec Ideal (Sh1 N) .f32)
    (g1 : (Sh1 R).BroadcastsInDim (Sh2 R 1) ![0]) (g2 : (Sh2 R 1).BroadcastsInDim (Sh2 R K) ![0, 1])
    (h1 : (Sh1 N).BroadcastsInDim (Sh2 1 N) ![1]) (h2 : (Sh2 1 N).BroadcastsInDim (Sh2 R N) ![0, 1])
    (c1 : (Sh1 R).ShapeCasts (Sh2 R 1)) (c2 : (Sh1 N).ShapeCasts (Sh2 1 N)) :
    hLayer A s W b g1 g2 h1 h2 = stage A (shapeCast (Sh2 R 1) s c1) W (shapeCast (Sh2 1 N) b c2) := by
  funext i
  obtain ⟨r, q, rfl⟩ : ∃ (r : Fin R) (q : Fin N), i = ix2 r q := ⟨i 0, i 1, eq_ix2 i⟩
  rw [stage_ix2, Cert.LibKeepdims.shapeCast_a_a1_apply]
  simp only [shapeCast_a_1a_apply]
  exact congrFun (hLayer_row A s W b g1 g2 h1 h2 r) q

/-- The host's layer followed by the host's rectifier is `stageRelu` of the same arrays. -/
theorem hRelu_hLayer_eq_stageRelu (A : FVec Ideal (Sh2 R K) .f32) (s : FVec Ideal (Sh1 R) .f32) (W : FVec Ideal (Sh2 K N) .f32) (b : FVec Ideal (Sh1 N) .f32)
    (g1 : (Sh1 R).BroadcastsInDim (Sh2 R 1) ![0]) (g2 : (Sh2 R 1).BroadcastsInDim (Sh2 R K) ![0, 1])
    (h1 : (Sh1 N).BroadcastsInDim (Sh2 1 N) ![1]) (h2 : (Sh2 1 N).BroadcastsInDim (Sh2 R N) ![0, 1])
    (c1 : (Sh1 R).ShapeCasts (Sh2 R 1)) (c2 : (Sh1 N).ShapeCasts (Sh2 1 N)) (hb : Sh0.BroadcastsInDim (Sh2 R N) ![]) :
    hRelu (hLayer A s W b g1 g2 h1 h2) hb = stageRelu A (shapeCast (Sh2 R 1) s c1) W (shapeCast (Sh2 1 N) b c2) := by
  funext i
  obtain ⟨r, q, rfl⟩ : ∃ (r : Fin R) (q : Fin N), i = ix2 r q := ⟨i 0, i 1, eq_ix2 i⟩
  unfold stageRelu
  rw [← hLayer_eq_stage A s W b g1 g2 h1 h2 c1 c2]
  exact congrFun (hRelu_row (hLayer A s W b g1 g2 h1 h2) hb r) q

end Cert.GraphConvDense

end
-- ==== Proof.Region0Value.lean ====
/-
  The first region's value. At every grid point the body stores, into the output window's block, the block product described
  in the dense-stage module, followed by the maximum with zero; the feature and normalisation windows move
  down the rows with the output window (block t is rows 5000·t … 5000·t + 4999), the weight and bias windows stay on
  their one block. So what point t writes back is block t of one function of the arrays the region is entered
  with, the twenty blocks cover the result array, and after the region it holds that function everywhere.
-/
import proofs.«107067_j10977936409091_1_alg».proof.Proof.Gen.KernelIdeal.Frame
import proofs.«107067_j10977936409091_1_alg».proof.Proof.LayerSpec
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)
open Cert.GraphConvDense Cert.LibDenseRows

variable (V : (c : Dev nD) → (b : Ref sig .tc) → Buf (Elt Ideal) ((c : Thread nD τ).loc b))

theorem hz : (![0, 0] : Fin 2 → Nat) = fun _ => 0 := funext fun a => by fin_cases a <;> rfl

/-- The body's stored value is the block layer of its four loaded blocks followed by the rectifier. -/
theorem pay_eq (x0 : Vec Ideal S5000x128 .f32) (x1 : Vec Ideal S5000x1 .f32) (x2 : Vec Ideal S128x128 .f32) (x3 : Vec Ideal S1x128 .f32) :
    k0_pay1 x0 x1 x2 x3 = kRelu (kLayer (R := 5000) (K := 128) (N := 128) x0 x1 x2 x3 shapeCasts_S5000x128_S5000x128 shapeCasts_S5000x1_S5000x1
      broadcasts_S5000x1_S5000x128 bitsLt_bf16_f32 shapeCasts_S1x128_S1x128 broadcasts_S1x128_S5000x128) := rfl

/-- Read at row p and column q of the block: the node row of block row p, then the maximum with zero. -/
theorem pay_apply (x0 : Vec Ideal S5000x128 .f32) (x1 : Vec Ideal S5000x1 .f32) (x2 : Vec Ideal S128x128 .f32) (x3 : Vec Ideal S1x128 .f32)
    (p : Fin 5000) (q : Fin 128) :
    k0_pay1 x0 x1 x2 x3 (ix2 p q)
      = max (nodeRow (fun k => x0 (ix2 p k)) (x1 (ix2 p (0 : Fin 1))) (fun k q => x2 (ix2 k q)) (fun q => x3 (ix2 (0 : Fin 1) q)) q) zeroW := by
  rw [pay_eq]
  exact (congrFun (kRelu_row _ p) q).trans (congrArg (fun z : EReal => max z zeroW) (congrFun (kLayer_row x0 x1 x2 x3 _ _ _ _ _ _ p) q))

/-- When the four blocks are rows T·5000 … of the features and of the normalisation column, and the whole weight
    and bias arrays, the stored value at (p, q) is the stage function at row T·5000 + p. -/
theorem block_eq (A : (Sh2 100000 128).Idx → EReal) (S : (Sh2 100000 1).Idx → EReal) (W : (Sh2 128 128).Idx → EReal) (B : (Sh2 1 128).Idx → EReal)
    (x0 : Vec Ideal S5000x128 .f32) (x1 : Vec Ideal S5000x1 .f32) (x2 : Vec Ideal S128x128 .f32) (x3 : Vec Ideal S1x128 .f32)
    (T : ℕ) (hT : T < 20)
    (h0 : ∀ (p : Fin 5000) (k : Fin 128), x0 (ix2 p k) = A (ix2 (⟨T * 5000 + p.val, by omega⟩ : Fin 100000) k))
    (h1 : ∀ p : Fin 5000, x1 (ix2 p (0 : Fin 1)) = S (ix2 (⟨T * 5000 + p.val, by omega⟩ : Fin 100000) (0 : Fin 1)))
    (h2 : ∀ (k : Fin 128) (q : Fin 128), x2 (ix2 k q) = W (ix2 k q))
    (h3 : ∀ q : Fin 128, x3 (ix2 (0 : Fin 1) q) = B (ix2 (0 : Fin 1) q))
    (p : Fin 5000) (q : Fin 128) :
    k0_pay1 x0 x1 x2 x3 (ix2 p q) = stageRelu A S W B (ix2 (⟨T * 5000 + p.val, by omega⟩ : Fin 100000) q) := by
  rw [pay_apply]
  unfold stageRelu
  rw [stage_ix2]
  exact congrArg (fun z : EReal => max z zeroW) (nodeRow_congr (funext fun k => h0 p k) (h1 p) (funext fun k => funext fun q => h2 k q) (funext h3) rfl)

/-- The printed index maps over the twenty points: features, normalisations and output on block (t, 0), weights and
    bias on block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point t writes back is block t of the stage function of the arrays as the region finds them. -/
theorem flushed_eq (c : Dev nD) (t : Fin cfg0.N) :
    (dat0 V c).flushed 4 t = ((cfg0.win 4).blk t).view.read (Elt Ideal)
      (stageRelu (R := 100000) (K := 128) (N := 128) (V c main_v23) (V c main_v24) (V c main_arg3) (V c main_v25)) := by
  show (cfg0.win 4).cut (grid0.coords t) ((dat0 V c).after 4 t) = _
  rw [after0_4]
  unfold out0_4
  rw [View.canon_unit_zero hz]
  simp only [View.ld_unit_zero (S := S5000x128) hz, View.ld_unit_zero (S := S5000x1) hz, View.ld_unit_zero (S := S128x128) hz, View.ld_unit_zero (S := S1x128) hz]
  obtain ⟨e00, e01, e10, e11, e20, e21, e30, e31, e40, e41⟩ := idx_facts t
  have hT : t.val < 20 := Nat.lt_of_lt_of_eq t.isLt (N_0 : cfg0.N = 20)
  funext j
  obtain ⟨p, q, rfl⟩ : ∃ (p : Fin 5000) (q : Fin 128), j = ix2 p q := ⟨j 0, j 1, eq_ix2 j⟩
  refine (block_eq (V c main_v23) (V c main_v24) (V c main_arg3) (V c main_v25) (iblk0 V c 0 t) (iblk0 V c 1 t) (iblk0 V c 2 t) (iblk0 V c 3 t) t.val hT
    (fun p k => ?_) (fun p => ?_) (fun k q => ?_) (fun q => ?_) p q).trans ?_
  · show V c main_v23 (((cfg0.win 0).blk t).view.emb (ix2 p k)) = _
    refine congrArg (V c main_v23) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · show V c main_v24 (((cfg0.win 1).blk t).view.emb (ix2 p (0 : Fin 1))) = _
    refine congrArg (V c main_v24) (funext fun a => Fin.ext ?_)
    match a with
    | ⟨0, _⟩ => show win0_1.index t (0 : Fin 2) * 5000 + 1 * p.val = t.val * 5000 + p.val; omega
    | ⟨1, _⟩ => show win0_1.index t (1 : Fin 2) * 1 + 1 * 0 = 0; omega
  · show V c main_arg3 (((cfg0.win 2).blk t).view.emb (ix2 k q)) = _
    refine congrArg (V c main_arg3) (funext fun a => Fin.ext ?_)
    match a with
    | ⟨0, _⟩ => show win0_2.index t (0 : Fin 2) * 128 + 1 * k.val = k.val; omega
    | ⟨1, _⟩ => show win0_2.index t (1 : Fin 2) * 128 + 1 * q.val = q.val; omega
  · show V c main_v25 (((cfg0.win 3).blk t).view.emb (ix2 (0 : Fin 1) q)) = _
    refine congrArg (V c main_v25) (funext fun a => Fin.ext ?_)
    match a with
    | ⟨0, _⟩ => show win0_3.index t (0 : Fin 2) * 1 + 1 * 0 = 0; omega
    | ⟨1, _⟩ => show win0_3.index t (1 : Fin 2) * 128 + 1 * q.val = q.val; omega
  · show _ = stageRelu (R := 100000) (K := 128) (N := 128) (V c main_v23) (V c main_v24) (V c main_arg3) (V c main_v25) (((cfg0.win 4).blk t).view.emb (ix2 p q))
    refine congrArg (stageRelu (R := 100000) (K := 128) (N := 128) (V c main_v23) (V c main_v24) (V c main_arg3) (V c main_v25)) (funext fun a => Fin.ext ?_)
    match a with
    | ⟨0, _⟩ => show t.val * 5000 + p.val = win0_4.index t (0 : Fin 2) * 5000 + 1 * p.val; omega
    | ⟨1, _⟩ => show q.val = win0_4.index t (1 : Fin 2) * 128 + 1 * q.val; omega

/-- An index of the result array is in point t's block iff each coordinate is in the block's range on its axis. -/
theorem mem_blk (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v26).slice (win0_4.rect t)).set ↔ _
  rw [View.set_slice_whole, Rect.mem_set_unit]
  exact Iff.rfl

/-- Every index of the result array is in the block of the point its row falls in: row r in block r / 5000. -/
theorem cover (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 20 := N_0
  have hlt : (i 0).val / 5000 < cfg0.N := by rw [hN]; omega
  obtain ⟨-, -, -, -, -, -, -, -, e40, e41⟩ := idx_facts ⟨(i 0).val / 5000, hlt⟩
  refine ⟨⟨(i 0).val / 5000, hlt⟩, flush0_4 _, ?_⟩
  rw [mem_blk]
  intro a
  match a with
  | ⟨0, _⟩ =>
    show win0_4.index ⟨(i 0).val / 5000, hlt⟩ (0 : Fin 2) * 5000 ≤ (i 0).val ∧ (i 0).val < win0_4.index ⟨(i 0).val / 5000, hlt⟩ (0 : Fin 2) * 5000 + 5000
    rw [e40]
    show (i 0).val / 5000 * 5000 ≤ (i 0).val ∧ (i 0).val < (i 0).val / 5000 * 5000 + 5000
    omega
  | ⟨1, _⟩ =>
    show win0_4.index ⟨(i 0).val / 5000, hlt⟩ (1 : Fin 2) * 128 ≤ (i 1).val ∧ (i 1).val < win0_4.index ⟨(i 0).val / 5000, hlt⟩ (1 : Fin 2) * 128 + 128
    rw [e41]
    omega

/-- After the region its result array is the stage function of the arrays the region was entered with. -/
theorem final (c : Dev nD) :
    (dat0 V c).arrAt 4 cfg0.N = stageRelu (R := 100000) (K := 128) (N := 128) (V c main_v23) (V c main_v24) (V c main_arg3) (V c main_v25) :=
  (dat0 V c).arrAt_eq_of_cover 4 _ (fun t _ => flushed_eq V c t) cover

end Cert.KernelIdeal.Region0

end
-- ==== Proof.Region1Value.lean ====
/-
  The second region's value. At every grid point the body stores, into the output window's block, the block product
  described in the dense-stage module, with no rectifier after it; the feature and normalisation windows move down
  the rows with the output window (block t is rows 5000·t … 5000·t + 4999), the weight and bias windows stay on their
  one block. So what point t writes back is block t of one function of the arrays the region is entered with, the
  twenty blocks cover the result array, and after the region it holds that function everywhere.
-/
import proofs.«107067_j10977936409091_1_alg».proof.Proof.Gen.KernelIdeal.Frame
import proofs.«107067_j10977936409091_1_alg».proof.Proof.LayerSpec
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)
open Cert.GraphConvDense Cert.LibDenseRows

variable (V : (c : Dev nD) → (b : Ref sig .tc) → Buf (Elt Ideal) ((c : Thread nD τ).loc b))

theorem hz : (![0, 0] : Fin 2 → Nat) = fun _ => 0 := funext fun a => by fin_cases a <;> rfl

/-- The body's stored value is the block layer of its four loaded blocks. -/
theorem pay_eq (x0 : Vec Ideal S5000x128 .f32) (x1 : Vec Ideal S5000x1 .f32) (x2 : Vec Ideal S128x64 .f32) (x3 : Vec Ideal S1x64 .f32) :
    k1_pay1 x0 x1 x2 x3 = kLayer (R := 5000) (K := 128) (N := 64) x0 x1 x2 x3 shapeCasts_S5000x128_S5000x128 shapeCasts_S5000x1_S5000x1
      broadcasts_S5000x1_S5000x128 bitsLt_bf16_f32 shapeCasts_S1x64_S1x64 broadcasts_S1x64_S5000x64 := rfl

/-- Read at row p and column q of the block: the node row of block row p. -/
theorem pay_apply (x0 : Vec Ideal S5000x128 .f32) (x1 : Vec Ideal S5000x1 .f32) (x2 : Vec Ideal S128x64 .f32) (x3 : Vec Ideal S1x64 .f32)
    (p : Fin 5000) (q : Fin 64) :
    k1_pay1 x0 x1 x2 x3 (ix2 p q)
      = nodeRow (fun k => x0 (ix2 p k)) (x1 (ix2 p (0 : Fin 1))) (fun k q => x2 (ix2 k q)) (fun q => x3 (ix2 (0 : Fin 1) q)) q := by
  rw [pay_eq]
  exact congrFun (kLayer_row x0 x1 x2 x3 _ _ _ _ _ _ p) q

/-- When the four blocks are rows T·5000 … of the features and of the normalisation column, and the whole weight
    and bias arrays, the stored value at (p, q) is the stage function at row T·5000 + p. -/
theorem block_eq (A : (Sh2 100000 128).Idx → EReal) (S : (Sh2 100000 1).Idx → EReal) (W : (Sh2 128 64).Idx → EReal) (B : (Sh2 1 64).Idx → EReal)
    (x0 : Vec Ideal S5000x128 .f32) (x1 : Vec Ideal S5000x1 .f32) (x2 : Vec Ideal S128x64 .f32) (x3 : Vec Ideal S1x64 .f32)
    (T : ℕ) (hT : T < 20)
    (h0 : ∀ (p : Fin 5000) (k : Fin 128), x0 (ix2 p k) = A (ix2 (⟨T * 5000 + p.val, by omega⟩ : Fin 100000) k))
    (h1 : ∀ p : Fin 5000, x1 (ix2 p (0 : Fin 1)) = S (ix2 (⟨T * 5000 + p.val, by omega⟩ : Fin 100000) (0 : Fin 1)))
    (h2 : ∀ (k : Fin 128) (q : Fin 64), x2 (ix2 k q) = W (ix2 k q))
    (h3 : ∀ q : Fin 64, x3 (ix2 (0 : Fin 1) q) = B (ix2 (0 : Fin 1) q))
    (p : Fin 5000) (q : Fin 64) :
    k1_pay1 x0 x1 x2 x3 (ix2 p q) = stage A S W B (ix2 (⟨T * 5000 + p.val, by omega⟩ : Fin 100000) q) := by
  rw [pay_apply]
  rw [stage_ix2]
  exact nodeRow_congr (funext fun k => h0 p k) (h1 p) (funext fun k => funext fun q => h2 k q) (funext h3) rfl

/-- The printed index maps over the twenty points: features, normalisations and output on block (t, 0), weights and
    bias on block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the stage function of the arrays as the region finds them. -/
theorem flushed_eq (c : Dev nD) (t : Fin cfg1.N) :
    (dat1 V c).flushed 4 t = ((cfg1.win 4).blk t).view.read (Elt Ideal)
      (stage (R := 100000) (K := 128) (N := 64) (V c main_v50) (V c main_v51) (V c main_arg5) (V c main_v52)) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S128x64) hz, View.ld_unit_zero (S := S1x64) hz]
  obtain ⟨e00, e01, e10, e11, e20, e21, e30, e31, e40, e41⟩ := idx_facts t
  have hT : t.val < 20 := Nat.lt_of_lt_of_eq t.isLt (N_1 : cfg1.N = 20)
  funext j
  obtain ⟨p, q, rfl⟩ : ∃ (p : Fin 5000) (q : Fin 64), j = ix2 p q := ⟨j 0, j 1, eq_ix2 j⟩
  refine (block_eq (V c main_v50) (V c main_v51) (V c main_arg5) (V c main_v52) (iblk1 V c 0 t) (iblk1 V c 1 t) (iblk1 V c 2 t) (iblk1 V c 3 t) t.val hT
    (fun p k => ?_) (fun p => ?_) (fun k q => ?_) (fun q => ?_) p q).trans ?_
  · show V c main_v50 (((cfg1.win 0).blk t).view.emb (ix2 p k)) = _
    refine congrArg (V c main_v50) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  · show V c main_v51 (((cfg1.win 1).blk t).view.emb (ix2 p (0 : Fin 1))) = _
    refine congrArg (V c main_v51) (funext fun a => Fin.ext ?_)
    match a with
    | ⟨0, _⟩ => show win1_1.index t (0 : Fin 2) * 5000 + 1 * p.val = t.val * 5000 + p.val; omega
    | ⟨1, _⟩ => show win1_1.index t (1 : Fin 2) * 1 + 1 * 0 = 0; omega
  · show V c main_arg5 (((cfg1.win 2).blk t).view.emb (ix2 k q)) = _
    refine congrArg (V c main_arg5) (funext fun a => Fin.ext ?_)
    match a with
    | ⟨0, _⟩ => show win1_2.index t (0 : Fin 2) * 128 + 1 * k.val = k.val; omega
    | ⟨1, _⟩ => show win1_2.index t (1 : Fin 2) * 64 + 1 * q.val = q.val; omega
  · show V c main_v52 (((cfg1.win 3).blk t).view.emb (ix2 (0 : Fin 1) q)) = _
    refine congrArg (V c main_v52) (funext fun a => Fin.ext ?_)
    match a with
    | ⟨0, _⟩ => show win1_3.index t (0 : Fin 2) * 1 + 1 * 0 = 0; omega
    | ⟨1, _⟩ => show win1_3.index t (1 : Fin 2) * 64 + 1 * q.val = q.val; omega
  · show _ = stage (R := 100000) (K := 128) (N := 64) (V c main_v50) (V c main_v51) (V c main_arg5) (V c main_v52) (((cfg1.win 4).blk t).view.emb (ix2 p q))
    refine congrArg (stage (R := 100000) (K := 128) (N := 64) (V c main_v50) (V c main_v51) (V c main_arg5) (V c main_v52)) (funext fun a => Fin.ext ?_)
    match a with
    | ⟨0, _⟩ => show t.val * 5000 + p.val = win1_4.index t (0 : Fin 2) * 5000 + 1 * p.val; omega
    | ⟨1, _⟩ => show q.val = win1_4.index t (1 : Fin 2) * 64 + 1 * q.val; omega

/-- An index of the result array is in point t's block iff each coordinate is in the block's range on its axis. -/
theorem mem_blk (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v53).slice (win1_4.rect t)).set ↔ _
  rw [View.set_slice_whole, Rect.mem_set_unit]
  exact Iff.rfl

/-- Every index of the result array is in the block of the point its row falls in: row r in block r / 5000. -/
theorem cover (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 20 := N_1
  have hlt : (i 0).val / 5000 < cfg1.N := by rw [hN]; omega
  obtain ⟨-, -, -, -, -, -, -, -, e40, e41⟩ := idx_facts ⟨(i 0).val / 5000, hlt⟩
  refine ⟨⟨(i 0).val / 5000, hlt⟩, flush1_4 _, ?_⟩
  rw [mem_blk]
  intro a
  match a with
  | ⟨0, _⟩ =>
    show win1_4.index ⟨(i 0).val / 5000, hlt⟩ (0 : Fin 2) * 5000 ≤ (i 0).val ∧ (i 0).val < win1_4.index ⟨(i 0).val / 5000, hlt⟩ (0 : Fin 2) * 5000 + 5000
    rw [e40]
    show (i 0).val / 5000 * 5000 ≤ (i 0).val ∧ (i 0).val < (i 0).val / 5000 * 5000 + 5000
    omega
  | ⟨1, _⟩ =>
    show win1_4.index ⟨(i 0).val / 5000, hlt⟩ (1 : Fin 2) * 64 ≤ (i 1).val ∧ (i 1).val < win1_4.index ⟨(i 0).val / 5000, hlt⟩ (1 : Fin 2) * 64 + 64
    rw [e41]
    omega

/-- After the region its result array is the stage function of the arrays the region was entered with. -/
theorem final (c : Dev nD) :
    (dat1 V c).arrAt 4 cfg1.N = stage (R := 100000) (K := 128) (N := 64) (V c main_v50) (V c main_v51) (V c main_arg5) (V c main_v52) :=
  (dat1 V c).arrAt_eq_of_cover 4 _ (fun t _ => flushed_eq V c t) cover

end Cert.KernelIdeal.Region1

end
-- ==== Proof.Values.lean ====
/-
  The kernel program's result is the reference's. Layer by layer: the reference's first layer, opened down to its
  aggregated features and its destination normalisation, is the host spelling of the dense stage followed by the
  rectifier, hence the stage function of those arrays; the first region leaves exactly that function of the arrays it
  is entered with, and those arrays are the reference's (the host side, read). So the first region's result array is
  the reference's first-layer value. The host operations between the regions then rebuild, from it, the reference's
  second aggregation, and the second region and the reference's second layer meet at the stage function again.
-/
import proofs.«107067_j10977936409091_1_alg».proof.Proof.HostChain
import proofs.«107067_j10977936409091_1_alg».proof.Proof.Region0Value
import proofs.«107067_j10977936409091_1_alg».proof.Proof.Region1Value
import proofs.«107067_j10977936409091_1_alg».proof.Proof.KernelRun

set_option maxRecDepth 16384

noncomputable section

namespace Cert.KernelIdeal.Result

open Cert.KernelIdeal Cert.KernelIdeal.Gen
open Idealize.ShloMosaic Idealize.ShloMosaic.TcCoe Idealize.SL.Sem
open Cert.GraphConvDense Cert.LibDenseRows

/-! ## The reference's layers are the stage function -/

/-- The reference's first layer after its rectifier, as the stage function of its aggregated features, its destination
    normalisation cast to a column, the first weights and the first bias cast to a row. -/
theorem ref_layer1 (x0 : (⟨Cert.ReferenceIdeal.S100000x128, .f32⟩ : BufTy).Contents (Elt Ideal)) (x1 x2 : (⟨Cert.ReferenceIdeal.S1600000, .i32⟩ : BufTy).Contents (Elt Ideal))
    (x3 : (⟨Cert.ReferenceIdeal.S128x128, .f32⟩ : BufTy).Contents (Elt Ideal)) (x4 : (⟨Cert.ReferenceIdeal.S128, .f32⟩ : BufTy).Contents (Elt Ideal)) :
    Cert.ReferenceIdeal.Read.val_main_v31 (F := Ideal) x0 x1 x2 x3 x4
      = stageRelu (R := 100000) (K := 128) (N := 128) (Cert.ReferenceIdeal.Read.val_main_v23 (F := Ideal) x0 x1 x2)
          (shapeCast S100000x1 (Cert.ReferenceIdeal.Read.val_main_v10 (F := Ideal) x2) shapeCasts_S100000_S100000x1) x3 (shapeCast S1x128 x4 shapeCasts_S128_S1x128) :=
  (show Cert.ReferenceIdeal.Read.val_main_v31 (F := Ideal) x0 x1 x2 x3 x4
      = hRelu (hLayer (R := 100000) (K := 128) (N := 128) (Cert.ReferenceIdeal.Read.val_main_v23 (F := Ideal) x0 x1 x2) (Cert.ReferenceIdeal.Read.val_main_v10 (F := Ideal) x2) x3 x4
          Cert.ReferenceIdeal.Facts₀.bcast_S100000_S100000x1_0 Cert.ReferenceIdeal.Facts₀.bcast_S100000x1_S100000x128_0_1 Cert.ReferenceIdeal.Facts₀.bcast_S128_S1x128_1 Cert.ReferenceIdeal.Facts₀.bcast_S1x128_S100000x128_0_1)
        Cert.ReferenceIdeal.Facts₀.bcast_S_S100000x128 from rfl).trans
    (hRelu_hLayer_eq_stageRelu _ _ _ _ _ _ _ _ shapeCasts_S100000_S100000x1 shapeCasts_S128_S1x128 _)

/-- The reference's second layer, as the stage function of its second aggregation, its destination normalisation cast to
    a column, the second weights and the second bias cast to a row. -/
theorem ref_layer2 (x0 : (⟨Cert.ReferenceIdeal.S100000x128, .f32⟩ : BufTy).Contents (Elt Ideal)) (x1 x2 : (⟨Cert.ReferenceIdeal.S1600000, .i32⟩ : BufTy).Contents (Elt Ideal))
    (x3 : (⟨Cert.ReferenceIdeal.S128x128, .f32⟩ : BufTy).Contents (Elt Ideal)) (x4 : (⟨Cert.ReferenceIdeal.S128, .f32⟩ : BufTy).Contents (Elt Ideal))
    (x5 : (⟨Cert.ReferenceIdeal.S128x64, .f32⟩ : BufTy).Contents (Elt Ideal)) (x6 : (⟨Cert.ReferenceIdeal.S64, .f32⟩ : BufTy).Contents (Elt Ideal)) :
    Cert.ReferenceIdeal.Read.val_main_v62 (F := Ideal) x0 x1 x2 x3 x4 x5 x6
      = stage (R := 100000) (K := 128) (N := 64) (Cert.ReferenceIdeal.Read.val_main_v55 (F := Ideal) x0 x1 x2 x3 x4)
          (shapeCast S100000x1 (Cert.ReferenceIdeal.Read.val_main_v42 (F := Ideal) x2) shapeCasts_S100000_S100000x1) x5 (shapeCast S1x64 x6 shapeCasts_S64_S1x64) :=
  (show Cert.ReferenceIdeal.Read.val_main_v62 (F := Ideal) x0 x1 x2 x3 x4 x5 x6
      = hLayer (R := 100000) (K := 128) (N := 64) (Cert.ReferenceIdeal.Read.val_main_v55 (F := Ideal) x0 x1 x2 x3 x4) (Cert.ReferenceIdeal.Read.val_main_v42 (F := Ideal) x2) x5 x6
          Cert.ReferenceIdeal.Facts₀.bcast_S100000_S100000x1_0 Cert.ReferenceIdeal.Facts₀.bcast_S100000x1_S100000x128_0_1 Cert.ReferenceIdeal.Facts₀.bcast_S64_S1x64_1 Cert.ReferenceIdeal.Facts₀.bcast_S1x64_S100000x64_0_1 from rfl).trans
    (hLayer_eq_stage _ _ _ _ _ _ _ _ shapeCasts_S100000_S100000x1 shapeCasts_S64_S1x64)

/-! ## The two regions' results -/

variable (m : (ℓ : Loc nD τ sig) → Buf (Elt Ideal) ℓ) (ρ : Dev nD → PrngReg)

/-- After the first region its result array is the reference's first-layer value of the launch arguments. -/
theorem layer1 (c : Dev nD) :
    W6 m ρ c (Proc.devRef .tc main_v26) = Cert.ReferenceIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [HostChain.W6_v26, Region0.final (V5 m ρ) c, HostChain.V5_v23, HostChain.V5_v24, HostChain.V5_v25, HostChain.V5_arg3, ref_layer1]

/-- After the second region its result array is the reference's result of the launch arguments. -/
theorem layer2 (c : Dev nD) :
    W12 m ρ c (Proc.devRef .tc main_v53) = Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [HostChain.W12_v53, Region1.final (V11 m ρ) c, HostChain.V11_v50 m ρ c (layer1 m ρ c), HostChain.V11_v51, HostChain.V11_v52, HostChain.V11_arg5, ref_layer2]

/-- Every weakly fair execution of the kernel program terminates without a fault, with its result array at the
    reference's result of the launch arguments and the arguments as launched. -/
theorem run : θ_run defs (onTc (τ := τ) (main (F := Ideal))) ⟨m, fun _ => 0, ρ⟩ (fun r => ∀ c : Dev nD,
      r.2.mem ((c.tc : Thread nD τ).loc main_v53) = Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (layer2 m ρ c), (h c).2⟩) (RunNamed.run_named m ρ)

end Cert.KernelIdeal.Result

end
-- ==== Proof.lean ====
/-
  Two stacked graph-convolution layers, D_in^{-1/2} · A · D_out^{-1/2} · x · W + b with a rectifier between them, over
  100000 nodes and 1600000 edges. The kernel program and the reference compute the degrees, the normalisations, the
  scaled features, the gather along the edges and the scatter-add onto the destinations with the same host
  operations; they differ only in the dense stage of each layer, which the kernel program runs as a pallas_call over
  twenty blocks of 5000 nodes (the destination normalisation, the product with the weights in a narrower float
  format, the bias, and in the first layer the rectifier) and the reference as host operations on all nodes at once.
  Over the extended reals a change of float format changes nothing and both matrix products are the same sum, so each
  region leaves in its result array the reference's value of that layer; nothing in this needs the inputs to be
  finite. The three frames are the generated ones (the reference's is its generated run with the result dropped), and
  the idealization's ledger is empty.
-/
import proofs.«107067_j10977936409091_1_alg».proof.Defs
import proofs.«107067_j10977936409091_1_alg».proof.Proof.Gen.Kernel
import proofs.«107067_j10977936409091_1_alg».proof.Proof.Gen.Kernel.Frame
import proofs.«107067_j10977936409091_1_alg».proof.Proof.Gen.KernelIdeal
import proofs.«107067_j10977936409091_1_alg».proof.Proof.Gen.KernelIdeal.Frame
import proofs.«107067_j10977936409091_1_alg».proof.Proof.Gen.ReferenceIdeal
import proofs.«107067_j10977936409091_1_alg».proof.Proof.Gen.ReferenceIdeal.Run
import proofs.«107067_j10977936409091_1_alg».proof.Proof.Gen.ReferenceIdeal.Read
import proofs.«107067_j10977936409091_1_alg».proof.Proof.Gen.Pre_finite_inputs
import proofs.«107067_j10977936409091_1_alg».proof.Proof.Values
import Idealize.ShloMosaic.Adequacy
import Idealize.ShloMosaic.Init

noncomputable section

namespace Cert.Proof

open Idealize.ShloMosaic Idealize.SL.Sem

/-- The word-level kernel program terminates without a fault and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result's value dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the seven arguments both programs end with the same result array: the reference's
    result function of the arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [Cert.ReferenceIdeal.Read.val_main_v62_eq, e0, e1, e2, e3, e4, e5, e6]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
